-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v144) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608 : Shape := ⟨1, ![8388608]⟩
abbrev S_ : Shape := ⟨0, ![]⟩

class Facts : Prop where
  bcast_S_S8388608 : S_.BroadcastsInDim S8388608 (![] : Fin 0 → Fin S8388608.rank)
  reducesTo_S8388608_S_d0 : S8388608.ReducesTo [0] S_
  h_S_ : 0 < S_.numel

variable [Facts]

def fn {F : FTy → Type} [FloatOps F] (main_arg0 : FVec F S8388608 .f32) (main_arg1 : FVec F S8388608 .f32) : IVec S_ 1 :=
  let main_v0 : FVec F S8388608 .f32 := Host.absf main_arg0
  let main_cst : FVec F S_ .f32 := constant S_ .f32 0x7F800000#32
  let main_v1 : FVec F S8388608 .f32 := broadcastInDim S8388608 ![] bcast_S_S8388608 main_cst
  let main_v2 : IVec S8388608 1 := cmpf .olt main_v0 main_v1
  let main_c : IVec S_ 1 := constantI S_ 1 1#1
  let main_v3 : IVec S_ 1 := (fun x v => Host.reduce IntOp.andi x v reducesTo_S8388608_S_d0 h_S_) main_v2 main_c
  let main_v4 : FVec F S8388608 .f32 := Host.absf main_arg1
  let main_cst_0 : FVec F S_ .f32 := constant S_ .f32 0x7F800000#32
  let main_v5 : FVec F S8388608 .f32 := broadcastInDim S8388608 ![] bcast_S_S8388608 main_cst_0
  let main_v6 : IVec S8388608 1 := cmpf .olt main_v4 main_v5
  let main_c_1 : IVec S_ 1 := constantI S_ 1 1#1
  let main_v7 : IVec S_ 1 := (fun x v => Host.reduce IntOp.andi x v reducesTo_S8388608_S_d0 h_S_) main_v6 main_c_1
  let main_v8 : IVec S_ 1 := andi main_v3 main_v7
  main_v8
-- ==== Kernel.lean ====
abbrev S8388608 : Shape := ⟨1, ![8388608]⟩
abbrev S8388608x16 : Shape := ⟨2, ![8388608, 16]⟩
abbrev S32768 : Shape := ⟨1, ![32768]⟩
abbrev S32768x16 : Shape := ⟨2, ![32768, 16]⟩
abbrev S32768x1 : Shape := ⟨2, ![32768, 1]⟩

abbrev nBuf : Space → Nat
  | .hbm => 3
  | .vmem => 6
  | .smem => 0
  | _ => 0

abbrev bufTy : (tb : Table) → Fin (tcTables nBuf tb) → BufTy
  | .hbm, ⟨0, _⟩ => ⟨S8388608, .f32⟩
  | .hbm, ⟨1, _⟩ => ⟨S8388608, .f32⟩
  | .hbm, ⟨2, _⟩ => ⟨S8388608x16, .f32⟩
  | .local _ .vmem, ⟨0, _⟩ => ⟨S32768, .f32⟩
  | .local _ .vmem, ⟨1, _⟩ => ⟨S32768, .f32⟩
  | .local _ .vmem, ⟨2, _⟩ => ⟨S32768, .f32⟩
  | .local _ .vmem, ⟨3, _⟩ => ⟨S32768, .f32⟩
  | .local _ .vmem, ⟨4, _⟩ => ⟨S32768x16, .f32⟩
  | .local _ .vmem, ⟨5, _⟩ => ⟨S32768x16, .f32⟩
  | _, _ => ⟨S8388608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![256], ![false]⟩

def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32768x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S32768_S32768_0 : ∀ a, (![0] : Fin 1 → Nat) a + S32768.size a ≤ S32768.size a
  h_S32768 : 0 < S32768.numel
  shapeCasts_S32768_S32768x1 : S32768.ShapeCasts S32768x1
  concatenates_S32768x1_S32768x1_S32768x1_S32768x1_S32768x1_S32768x1_S32768x1_S32768x1_S32768x1_S32768x1_S32768x1_S32768x1_S32768x1_S32768x1_S32768x1_S32768x1_S32768x16_d1 : Shape.Concatenates [S32768x1, S32768x1, S32768x1, S32768x1, S32768x1, S32768x1, S32768x1, S32768x1, S32768x1, S32768x1, S32768x1, S32768x1, S32768x1, S32768x1, S32768x1, S32768x1] S32768x16 1
  inb_S32768x16_S32768x16_0_0 : ∀ a, (![0, 0] : Fin 2 → Nat) a + S32768x16.size a ≤ S32768x16.size a
  h_S32768x16 : 0 < S32768x16.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32768.size a ≤ S8388608.size a
  hwx0_0 : ∀ i : grid0.Coords, EltTy.bits .f32 = 32 ∨ (Rect.block (s := S8388608) S32768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32768.size a ≤ S8388608.size a
  hwx0_1 : ∀ i : grid0.Coords, EltTy.bits .f32 = 32 ∨ (Rect.block (s := S8388608) S32768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32768x16.size a ≤ S8388608x16.size a
  hwx0_2 : ∀ i : grid0.Coords, EltTy.bits .f32 = 32 ∨ (Rect.block (s := S8388608x16) S32768x16.size (cc0_transform_2 i) (hinb0_2 i)).WholeWords (EltTy.packing .f32)

variable [Facts₀]

abbrev win0_0 : Pipeline.Window sig grid0 :=
  Pipeline.Window.ofSpec (Memref.whole main_arg0) S32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S32768x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8388608 : Shape := ⟨1, ![8388608]⟩
abbrev S_ : Shape := ⟨0, ![]⟩
abbrev S8388608x1 : Shape := ⟨2, ![8388608, 1]⟩
abbrev S8388608x16 : Shape := ⟨2, ![8388608, 16]⟩

abbrev nBuf : Space → Nat
  | .hbm => 195
  | .vmem => 0
  | .smem => 0
  | _ => 0

abbrev hbmTy0_0 (i : Nat) : BufTy := match i % 128 with
  | 0 => ⟨S8388608, .f32⟩
  | 1 => ⟨S8388608, .f32⟩
  | 2 => ⟨S8388608, .f32⟩
  | 3 => ⟨S_, .f32⟩
  | 4 => ⟨S8388608, .f32⟩
  | 5 => ⟨S8388608, .f32⟩
  | 6 => ⟨S_, .f32⟩
  | 7 => ⟨S_, .f32⟩
  | 8 => ⟨S8388608, .f32⟩
  | 9 => ⟨S8388608, .f32⟩
  | 10 => ⟨S8388608, .f32⟩
  | 11 => ⟨S_, .f32⟩
  | 12 => ⟨S8388608, .f32⟩
  | 13 => ⟨S_, .f32⟩
  | 14 => ⟨S8388608, .f32⟩
  | 15 => ⟨S8388608, .f32⟩
  | 16 => ⟨S8388608, .f32⟩
  | 17 => ⟨S_, .f32⟩
  | 18 => ⟨S8388608, .f32⟩
  | 19 => ⟨S8388608, .f32⟩
  | 20 => ⟨S8388608, .f32⟩
  | 21 => ⟨S_, .f32⟩
  | 22 => ⟨S8388608, .f32⟩
  | 23 => ⟨S8388608, .f32⟩
  | 24 => ⟨S8388608, .f32⟩
  | 25 => ⟨S_, .f32⟩
  | 26 => ⟨S8388608, .f32⟩
  | 27 => ⟨S8388608, .f32⟩
  | 28 => ⟨S8388608, .f32⟩
  | 29 => ⟨S_, .f32⟩
  | 30 => ⟨S8388608, .f32⟩
  | 31 => ⟨S8388608, .f32⟩
  | 32 => ⟨S8388608, .f32⟩
  | 33 => ⟨S_, .f32⟩
  | 34 => ⟨S8388608, .f32⟩
  | 35 => ⟨S8388608, .f32⟩
  | 36 => ⟨S8388608, .f32⟩
  | 37 => ⟨S_, .f32⟩
  | 38 => ⟨S8388608, .f32⟩
  | 39 => ⟨S8388608, .f32⟩
  | 40 => ⟨S8388608, .f32⟩
  | 41 => ⟨S_, .f32⟩
  | 42 => ⟨S8388608, .f32⟩
  | 43 => ⟨S8388608, .f32⟩
  | 44 => ⟨S8388608, .f32⟩
  | 45 => ⟨S_, .f32⟩
  | 46 => ⟨S8388608, .f32⟩
  | 47 => ⟨S8388608, .f32⟩
  | 48 => ⟨S_, .f32⟩
  | 49 => ⟨S8388608, .f32⟩
  | 50 => ⟨S8388608, .f32⟩
  | 51 => ⟨S8388608, .f32⟩
  | 52 => ⟨S_, .f32⟩
  | 53 => ⟨S8388608, .f32⟩
  | 54 => ⟨S8388608, .f32⟩
  | 55 => ⟨S8388608, .f32⟩
  | 56 => ⟨S_, .f32⟩
  | 57 => ⟨S8388608, .f32⟩
  | 58 => ⟨S8388608, .f32⟩
  | 59 => ⟨S_, .f32⟩
  | 60 => ⟨S8388608, .f32⟩
  | 61 => ⟨S8388608, .f32⟩
  | 62 => ⟨S8388608, .f32⟩
  | 63 => ⟨S_, .f32⟩
  | 64 => ⟨S8388608, .f32⟩
  | 65 => ⟨S8388608, .f32⟩
  | 66 => ⟨S8388608, .f32⟩
  | 67 => ⟨S_, .f32⟩
  | 68 => ⟨S8388608, .f32⟩
  | 69 => ⟨S8388608, .f32⟩
  | 70 => ⟨S_, .f32⟩
  | 71 => ⟨S8388608, .f32⟩
  | 72 => ⟨S8388608, .f32⟩
  | 73 => ⟨S_, .f32⟩
  | 74 => ⟨S8388608, .f32⟩
  | 75 => ⟨S8388608, .f32⟩
  | 76 => ⟨S_, .f32⟩
  | 77 => ⟨S8388608, .f32⟩
  | 78 => ⟨S8388608, .f32⟩
  | 79 => ⟨S8388608, .f32⟩
  | 80 => ⟨S8388608, .f32⟩
  | 81 => ⟨S_, .f32⟩
  | 82 => ⟨S8388608, .f32⟩
  | 83 => ⟨S8388608, .f32⟩
  | 84 => ⟨S_, .f32⟩
  | 85 => ⟨S8388608, .f32⟩
  | 86 => ⟨S8388608, .f32⟩
  | 87 => ⟨S_, .f32⟩
  | 88 => ⟨S8388608, .f32⟩
  | 89 => ⟨S8388608, .f32⟩
  | 90 => ⟨S8388608, .f32⟩
  | 91 => ⟨S8388608, .f32⟩
  | 92 => ⟨S_, .f32⟩
  | 93 => ⟨S8388608, .f32⟩
  | 94 => ⟨S8388608, .f32⟩
  | 95 => ⟨S_, .f32⟩
  | 96 => ⟨S8388608, .f32⟩
  | 97 => ⟨S8388608, .f32⟩
  | 98 => ⟨S8388608, .f32⟩
  | 99 => ⟨S8388608, .f32⟩
  | 100 => ⟨S_, .f32⟩
  | 101 => ⟨S8388608, .f32⟩
  | 102 => ⟨S8388608, .f32⟩
  | 103 => ⟨S_, .f32⟩
  | 104 => ⟨S8388608, .f32⟩
  | 105 => ⟨S8388608, .f32⟩
  | 106 => ⟨S8388608, .f32⟩
  | 107 => ⟨S8388608, .f32⟩
  | 108 => ⟨S_, .f32⟩
  | 109 => ⟨S8388608, .f32⟩
  | 110 => ⟨S8388608, .f32⟩
  | 111 => ⟨S_, .f32⟩
  | 112 => ⟨S8388608, .f32⟩
  | 113 => ⟨S8388608, .f32⟩
  | 114 => ⟨S_, .f32⟩
  | 115 => ⟨S8388608, .f32⟩
  | 116 => ⟨S8388608, .f32⟩
  | 117 => ⟨S8388608, .f32⟩
  | 118 => ⟨S8388608, .f32⟩
  | 119 => ⟨S_, .f32⟩
  | 120 => ⟨S8388608, .f32⟩
  | 121 => ⟨S8388608, .f32⟩
  | 122 => ⟨S_, .f32⟩
  | 123 => ⟨S8388608, .f32⟩
  | 124 => ⟨S8388608, .f32⟩
  | 125 => ⟨S8388608, .f32⟩
  | 126 => ⟨S8388608, .f32⟩
  | 127 => ⟨S_, .f32⟩
  | _ => ⟨S8388608, .f32⟩

abbrev hbmTy0_1 (i : Nat) : BufTy := match i % 128 with
  | 0 => ⟨S8388608, .f32⟩
  | 1 => ⟨S8388608, .f32⟩
  | 2 => ⟨S_, .f32⟩
  | 3 => ⟨S8388608, .f32⟩
  | 4 => ⟨S8388608, .f32⟩
  | 5 => ⟨S8388608, .f32⟩
  | 6 => ⟨S8388608, .f32⟩
  | 7 => ⟨S_, .f32⟩
  | 8 => ⟨S8388608, .f32⟩
  | 9 => ⟨S8388608, .f32⟩
  | 10 => ⟨S_, .f32⟩
  | 11 => ⟨S8388608, .f32⟩
  | 12 => ⟨S8388608, .f32⟩
  | 13 => ⟨S8388608, .f32⟩
  | 14 => ⟨S8388608, .f32⟩
  | 15 => ⟨S_, .f32⟩
  | 16 => ⟨S8388608, .f32⟩
  | 17 => ⟨S8388608, .f32⟩
  | 18 => ⟨S_, .f32⟩
  | 19 => ⟨S8388608, .f32⟩
  | 20 => ⟨S8388608, .f32⟩
  | 21 => ⟨S8388608, .f32⟩
  | 22 => ⟨S8388608, .f32⟩
  | 23 => ⟨S_, .f32⟩
  | 24 => ⟨S8388608, .f32⟩
  | 25 => ⟨S8388608, .f32⟩
  | 26 => ⟨S_, .f32⟩
  | 27 => ⟨S8388608, .f32⟩
  | 28 => ⟨S8388608, .f32⟩
  | 29 => ⟨S_, .f32⟩
  | 30 => ⟨S8388608, .f32⟩
  | 31 => ⟨S8388608, .f32⟩
  | 32 => ⟨S8388608, .f32⟩
  | 33 => ⟨S8388608, .f32⟩
  | 34 => ⟨S_, .f32⟩
  | 35 => ⟨S8388608, .f32⟩
  | 36 => ⟨S8388608, .f32⟩
  | 37 => ⟨S_, .f32⟩
  | 38 => ⟨S8388608, .f32⟩
  | 39 => ⟨S8388608, .f32⟩
  | 40 => ⟨S8388608, .f32⟩
  | 41 => ⟨S8388608, .f32⟩
  | 42 => ⟨S_, .f32⟩
  | 43 => ⟨S8388608, .f32⟩
  | 44 => ⟨S8388608, .f32⟩
  | 45 => ⟨S_, .f32⟩
  | 46 => ⟨S8388608, .f32⟩
  | 47 => ⟨S8388608, .f32⟩
  | 48 => ⟨S8388608, .f32⟩
  | 49 => ⟨S8388608, .f32⟩
  | 50 => ⟨S8388608x1, .f32⟩
  | 51 => ⟨S8388608x1, .f32⟩
  | 52 => ⟨S8388608x1, .f32⟩
  | 53 => ⟨S8388608x1, .f32⟩
  | 54 => ⟨S8388608x1, .f32⟩
  | 55 => ⟨S8388608x1, .f32⟩
  | 56 => ⟨S8388608x1, .f32⟩
  | 57 => ⟨S8388608x1, .f32⟩
  | 58 => ⟨S8388608x1, .f32⟩
  | 59 => ⟨S8388608x1, .f32⟩
  | 60 => ⟨S8388608x1, .f32⟩
  | 61 => ⟨S8388608x1, .f32⟩
  | 62 => ⟨S8388608x1, .f32⟩
  | 63 => ⟨S8388608x1, .f32⟩
  | 64 => ⟨S8388608x1, .f32⟩
  | 65 => ⟨S8388608x1, .f32⟩
  | 66 => ⟨S8388608x16, .f32⟩
  | _ => ⟨S8388608, .f32⟩

abbrev hbmTy (i : Nat) : BufTy := match i / 128 with
  | 0 => hbmTy0_0 i
  | 1 => hbmTy0_1 i
  | _ => ⟨S8388608, .f32⟩

abbrev bufTy : (tb : Table) → Fin (tcTables nBuf tb) → BufTy
  | .hbm, ⟨i, _⟩ => hbmTy i
  | _, _ => ⟨S8388608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_9 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_10 : Ref sig .tc := ⟨.hbm, 45, rfl⟩
abbrev main_v30 : Ref sig .tc := ⟨.hbm, 46, rfl⟩
abbrev main_v31 : Ref sig .tc := ⟨.hbm, 47, rfl⟩
abbrev main_cst_11 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_12 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_13 : Ref sig .tc := ⟨.hbm, 56, rfl⟩
abbrev main_v38 : Ref sig .tc := ⟨.hbm, 57, rfl⟩
abbrev main_v39 : Ref sig .tc := ⟨.hbm, 58, rfl⟩
abbrev main_cst_14 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_15 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_16 : Ref sig .tc := ⟨.hbm, 67, rfl⟩
abbrev main_v46 : Ref sig .tc := ⟨.hbm, 68, rfl⟩
abbrev main_v47 : Ref sig .tc := ⟨.hbm, 69, rfl⟩
abbrev main_cst_17 : Ref sig .tc := ⟨.hbm, 70, rfl⟩
abbrev main_v48 : Ref sig .tc := ⟨.hbm, 71, rfl⟩
abbrev main_v49 : Ref sig .tc := ⟨.hbm, 72, rfl⟩
abbrev main_cst_18 : Ref sig .tc := ⟨.hbm, 73, rfl⟩
abbrev main_v50 : Ref sig .tc := ⟨.hbm, 74, rfl⟩
abbrev main_v51 : Ref sig .tc := ⟨.hbm, 75, rfl⟩
abbrev main_cst_19 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_20 : Ref sig .tc := ⟨.hbm, 81, rfl⟩
abbrev main_v56 : Ref sig .tc := ⟨.hbm, 82, rfl⟩
abbrev main_v57 : Ref sig .tc := ⟨.hbm, 83, rfl⟩
abbrev main_cst_21 : Ref sig .tc := ⟨.hbm, 84, rfl⟩
abbrev main_v58 : Ref sig .tc := ⟨.hbm, 85, rfl⟩
abbrev main_v59 : Ref sig .tc := ⟨.hbm, 86, rfl⟩
abbrev main_cst_22 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_23 : Ref sig .tc := ⟨.hbm, 92, rfl⟩
abbrev main_v64 : Ref sig .tc := ⟨.hbm, 93, rfl⟩
abbrev main_v65 : Ref sig .tc := ⟨.hbm, 94, rfl⟩
abbrev main_cst_24 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_25 : Ref sig .tc := ⟨.hbm, 100, rfl⟩
abbrev main_v70 : Ref sig .tc := ⟨.hbm, 101, rfl⟩
abbrev main_v71 : Ref sig .tc := ⟨.hbm, 102, rfl⟩
abbrev main_cst_26 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_cst_27 : Ref sig .tc := ⟨.hbm, 108, rfl⟩
abbrev main_v76 : Ref sig .tc := ⟨.hbm, 109, rfl⟩
abbrev main_v77 : Ref sig .tc := ⟨.hbm, 110, rfl⟩
abbrev main_cst_28 : Ref sig .tc := ⟨.hbm, 111, rfl⟩
abbrev main_v78 : Ref sig .tc := ⟨.hbm, 112, rfl⟩
abbrev main_v79 : Ref sig .tc := ⟨.hbm, 113, rfl⟩
abbrev main_cst_29 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_cst_30 : Ref sig .tc := ⟨.hbm, 119, rfl⟩
abbrev main_v84 : Ref sig .tc := ⟨.hbm, 120, rfl⟩
abbrev main_v85 : Ref sig .tc := ⟨.hbm, 121, rfl⟩
abbrev main_cst_31 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_cst_32 : Ref sig .tc := ⟨.hbm, 127, rfl⟩
abbrev main_v90 : Ref sig .tc := ⟨.hbm, 128, rfl⟩
abbrev main_v91 : Ref sig .tc := ⟨.hbm, 129, rfl⟩
abbrev main_cst_33 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_cst_34 : Ref sig .tc := ⟨.hbm, 135, rfl⟩
abbrev main_v96 : Ref sig .tc := ⟨.hbm, 136, rfl⟩
abbrev main_v97 : Ref sig .tc := ⟨.hbm, 137, rfl⟩
abbrev main_cst_35 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_cst_36 : Ref sig .tc := ⟨.hbm, 143, rfl⟩
abbrev main_v102 : Ref sig .tc := ⟨.hbm, 144, rfl⟩
abbrev main_v103 : Ref sig .tc := ⟨.hbm, 145, rfl⟩
abbrev main_cst_37 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_cst_38 : Ref sig .tc := ⟨.hbm, 151, rfl⟩
abbrev main_v108 : Ref sig .tc := ⟨.hbm, 152, rfl⟩
abbrev main_v109 : Ref sig .tc := ⟨.hbm, 153, rfl⟩
abbrev main_cst_39 : Ref sig .tc := ⟨.hbm, 154, rfl⟩
abbrev main_v110 : Ref sig .tc := ⟨.hbm, 155, rfl⟩
abbrev main_v111 : Ref sig .tc := ⟨.hbm, 156, rfl⟩
abbrev main_cst_40 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_cst_41 : Ref sig .tc := ⟨.hbm, 162, rfl⟩
abbrev main_v116 : Ref sig .tc := ⟨.hbm, 163, rfl⟩
abbrev main_v117 : Ref sig .tc := ⟨.hbm, 164, rfl⟩
abbrev main_cst_42 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_cst_43 : Ref sig .tc := ⟨.hbm, 170, rfl⟩
abbrev main_v122 : Ref sig .tc := ⟨.hbm, 171, rfl⟩
abbrev main_v123 : Ref sig .tc := ⟨.hbm, 172, rfl⟩
abbrev main_cst_44 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩

abbrev nD : Nat := 1
abbrev τ : Topo := Topo.v7x

variable {F : FTy → Type} [FloatOps F]

class Facts₀ : Prop where
  bcast_S_S8388608 : S_.BroadcastsInDim S8388608 (![] : Fin 0 → Fin S8388608.rank)
  bcast_S8388608_S8388608x1_0 : S8388608.BroadcastsInDim S8388608x1 (![0] : Fin 1 → Fin S8388608x1.rank)
  concatenates_S8388608x1_S8388608x1_S8388608x1_S8388608x1_S8388608x1_S8388608x1_S8388608x1_S8388608x1_S8388608x1_S8388608x1_S8388608x1_S8388608x1_S8388608x1_S8388608x1_S8388608x1_S8388608x1_S8388608x16_d1 : Shape.Concatenates [S8388608x1, S8388608x1, S8388608x1, S8388608x1, S8388608x1, S8388608x1, S8388608x1, S8388608x1, S8388608x1, S8388608x1, S8388608x1, S8388608x1, S8388608x1, S8388608x1, S8388608x1, S8388608x1] S8388608x16 1

variable [Facts₀]

class Facts : Prop extends Facts₀ where

variable [Facts]
-- ==== Proof.LibColumn.lean ====
/-
  Column vectors at an index. A sum along the last axis of an `[a, n]` array is an `[a]` array; kept as a column it is
  viewed as `[a, 1]` and then laid across the `b` columns of an `[a, b]` array, so that every entry of a row meets its
  row's sum. Read at an index, each of the three steps moves no data: the cast reads the same position, the spread
  reads its row's one entry, and the sum at row `r` adds the row's `n` entries.
-/
import Idealize.ShloMosaic.Lib.Pipeline.Value
import Idealize.ShloMosaic.Lib.ValueIdx
import Idealize.ShloMosaic.PureOps.Ideal.Laws

noncomputable section

open scoped BigOperators

namespace Cert.LibColumn

open Idealize.ShloMosaic Idealize.ShloMosaic.ValueIdx

variable {α : Type}

/-- An `[a]` array cast to the column `[a, 1]` reads, at `(i, u)`, the operand at `i`, whatever the unit coordinate `u`:
    position `i · 1 + u` of the column is position `i` of the array. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The source index of a sum along axis 1 of a rank-2 array, over row `r` with coordinate `k` on the summed axis, is
    `(r, k)`. -/
theorem lift_last_ix1 {a n : ℕ} (h : (⟨2, ![a, n]⟩ : Shape).Reduces [1] ⟨1, ![a]⟩) (r : Fin a) (k : Fin n) :
    h.lift (ix1 r) k = ix2 r k := by
  funext c
  apply Fin.ext
  show h.liftVal (ix1 r) k.val c = (ix2 r k c).val
  unfold Shape.Reduces.liftVal
  match c with
  | ⟨0, _⟩ => rfl
  | ⟨1, _⟩ => rfl

/-- At the extended reals a lane sum along the last axis of an `[a, n]` array (from the neutral zero, which the reading
    drops) is, at row `r`, the sum of the row's `n` entries. The hypothesis on the accumulator word is typed as a printed
    program carries it: the zero word equal to itself. -/
theorem multiReduction_add_last_apply {a n : ℕ} (src : FVec Ideal ⟨2, ![a, n]⟩ .f32)
    (h : (⟨2, ![a, n]⟩ : Shape).Reduces [1] ⟨1, ![a]⟩) (hφ : FKind.Formats .f32)
    (hacc : (0x00000000#32 : BitVec 32) = 0x00000000#32) (r : Fin a) :
    multiReduction .add [1] ⟨1, ![a]⟩ src 0x00000000#32 h hφ hacc (ix1 r) = ∑ k : Fin n, src (ix2 r k) := by
  refine (Ideal.multiReduction_add_single src 0x00000000#32 h hφ hacc (ix1 r)).trans ?_
  exact Finset.sum_congr rfl fun k _ => congrArg src (lift_last_ix1 h r k)

end Cert.LibColumn

end
-- ==== Proof.Harmonics.lean ====
/-
  The real spherical harmonics of degree below four, as functions of `x = cos θ` and the azimuth `φ`, on the
  extended reals. With `s = sqrt (max 0 (1 - x²))` (the sine of the polar angle, the radicand clipped at zero) the
  associated Legendre functions come from three recurrences: along the diagonal `P_m^m = -(2m-1) · s · P_{m-1}^{m-1}`
  from `P_0^0 = 1`; one step off it `P_{m+1}^m = (2m+1) · x · P_m^m`; and upward in the degree
  `P_l^m = ((2l-1) · x · P_{l-1}^m - (l+m-1) · P_{l-2}^m) / (l-m)`. Column `l² + l + m` of the result is
  `N · P_l^0` for `m = 0`, `N · P_l^m · cos (m φ)` for `m > 0` and `N · P_l^{|m|} · sin (|m| φ)` for `m < 0`, with `N`
  the normalising constant of the pair `(l, |m|)` (with its sign, and the factor `√2` off the axis) as the float
  both programs carry for it. Every literal is kept as its binary word: the same word stands on both sides of the
  claim, so its value is never needed.
-/
import Idealize.ShloMosaic.PureOps.Ideal
import Idealize.ShloMosaic.Lib.ValueIdx

noncomputable section

namespace Cert.Harmonics

open Idealize.ShloMosaic Idealize.ShloMosaic.ValueIdx

/-- The exact value of the single-precision float with the given word. -/
abbrev lit (w : BitVec 32) : EReal := Ideal.ofBits .f32 w

/-- `sin θ` from `x = cos θ`: the root of `1 - x²`, clipped at zero from below. -/
def sinTheta (x : EReal) : EReal := Ideal.sqrt (max (lit 0x00000000#32) (lit 0x3F800000#32 - x * x))

/-- `P_0^0 = 1`. -/
def p00 : EReal := lit 0x3F800000#32

/-- The diagonal: `P_1^1 = -1 · s · P_0^0`, `P_2^2 = -3 · s · P_1^1`, `P_3^3 = -5 · s · P_2^2`. -/
def p11 (x : EReal) : EReal := lit 0xBF800000#32 * sinTheta x * p00
def p22 (x : EReal) : EReal := lit 0xC0400000#32 * sinTheta x * p11 x
def p33 (x : EReal) : EReal := lit 0xC0A00000#32 * sinTheta x * p22 x

/-- One step off the diagonal: `P_1^0 = 1 · x · P_0^0`, `P_2^1 = 3 · x · P_1^1`, `P_3^2 = 5 · x · P_2^2`. -/
def p10 (x : EReal) : EReal := lit 0x3F800000#32 * x * p00
def p21 (x : EReal) : EReal := lit 0x40400000#32 * x * p11 x
def p32 (x : EReal) : EReal := lit 0x40A00000#32 * x * p22 x

/-- Upward in the degree: `P_2^0 = (3 x P_1^0 - 1 · P_0^0) / 2`, `P_3^0 = (5 x P_2^0 - 2 · P_1^0) / 3`,
    `P_3^1 = (5 x P_2^1 - 3 · P_1^1) / 2`. -/
def p20 (x : EReal) : EReal := Ideal.div (lit 0x40400000#32 * x * p10 x - lit 0x3F800000#32 * p00) (lit 0x40000000#32)
def p30 (x : EReal) : EReal := Ideal.div (lit 0x40A00000#32 * x * p20 x - lit 0x40000000#32 * p10 x) (lit 0x40400000#32)
def p31 (x : EReal) : EReal := Ideal.div (lit 0x40A00000#32 * x * p21 x - lit 0x40400000#32 * p11 x) (lit 0x40000000#32)

/-- Column `q` of the result at one pair `(x, φ)`: the harmonics in the order
    `(l, m) = (0,0), (1,-1), (1,0), (1,1), (2,-2), …, (3,3)`. -/
def col (q : Fin 16) (x φ : EReal) : EReal :=
  match q with
  | ⟨0, _⟩ => lit 0x3E906EBB#32 * p00
  | ⟨1, _⟩ => lit 0x3EFA2A1C#32 * p11 x * Ideal.sin (lit 0x3F800000#32 * φ)
  | ⟨2, _⟩ => lit 0x3EFA2A1C#32 * p10 x
  | ⟨3, _⟩ => lit 0x3EFA2A1C#32 * p11 x * Ideal.cos (lit 0x3F800000#32 * φ)
  | ⟨4, _⟩ => lit 0xBE3A762B#32 * p22 x * Ideal.sin (lit 0x40000000#32 * φ)
  | ⟨5, _⟩ => lit 0x3EBA762B#32 * p21 x * Ideal.sin (lit 0x3F800000#32 * φ)
  | ⟨6, _⟩ => lit 0x3F217B01#32 * p20 x
  | ⟨7, _⟩ => lit 0x3EBA762B#32 * p21 x * Ideal.cos (lit 0x3F800000#32 * φ)
  | ⟨8, _⟩ => lit 0x3E3A762B#32 * p22 x * Ideal.cos (lit 0x40000000#32 * φ)
  | ⟨9, _⟩ => lit 0x3D211F09#32 * p33 x * Ideal.sin (lit 0x40400000#32 * φ)
  | ⟨10, _⟩ => lit 0xBDC55519#32 * p32 x * Ideal.sin (lit 0x40000000#32 * φ)
  | ⟨11, _⟩ => lit 0x3E9C0145#32 * p31 x * Ideal.sin (lit 0x3F800000#32 * φ)
  | ⟨12, _⟩ => lit 0x3F3F10F8#32 * p30 x
  | ⟨13, _⟩ => lit 0x3E9C0145#32 * p31 x * Ideal.cos (lit 0x3F800000#32 * φ)
  | ⟨14, _⟩ => lit 0x3DC55519#32 * p32 x * Ideal.cos (lit 0x40000000#32 * φ)
  | ⟨15, _⟩ => lit 0x3D211F09#32 * p33 x * Ideal.cos (lit 0x40400000#32 * φ)
  | ⟨_ + 16, h⟩ => absurd h (Nat.not_lt.2 (Nat.le_add_left _ _))

/-- The whole result: entry `(r, q)` is column `q` at the `r`-th pair of the two argument arrays. -/
def table (x φ : (⟨1, ![8388608]⟩ : Shape).Idx → EReal) : (⟨2, ![8388608, 16]⟩ : Shape).Idx → EReal :=
  fun i => col (i 1) (x (ix1 (i 0))) (φ (ix1 (i 0)))

theorem table_apply (x φ : (⟨1, ![8388608]⟩ : Shape).Idx → EReal) (r : Fin 8388608) (q : Fin 16) :
    table x φ (ix2 r q) = col q (x (ix1 r)) (φ (ix1 r)) := rfl

end Cert.Harmonics

end
-- ==== Proof.KernelTable.lean ====
/-
  The idealized kernel's result array is the table of the harmonics. One grid point `t` of the 256 works on rows
  `32768 · t … 32768 · t + 32767`: it loads that stretch of both argument arrays, forms the sixteen columns as
  vectors of 32768 entries, views each as a column `[32768, 1]` and joins them along the second axis into the
  block `[32768, 16]` it writes back. Entry `(p, q)` of that block is therefore column `q` of the harmonics at the
  `p`-th loaded pair, which is pair `32768 · t + p` of the arguments; and every row `r` of the result lies in the
  block of exactly the point `r / 32768`. So after the run the array is the table, entry by entry.
-/
import proofs.«108804_j35820027249310_1_alg».proof.Proof.ValuePatched
import proofs.«108804_j35820027249310_1_alg».proof.Proof.LibColumn
import proofs.«108804_j35820027249310_1_alg».proof.Proof.Harmonics

noncomputable section

namespace Cert.KernelIdeal.Table

open Cert.KernelIdeal Cert.KernelIdeal.Gen Cert.KernelIdeal.ValueP Idealize.ShloMosaic Idealize.ShloMosaic.TcCoe Idealize.SL.Sem
open Idealize.ShloMosaic.ValueIdx Cert.Harmonics Cert.LibColumn
open Idealize.ShloMosaic.Pipeline (Dat)

/-! ## One block: entry `(p, q)` is column `q` at the `p`-th loaded pair -/

theorem offset_zero : (![0] : Fin 1 → Nat) = fun _ => 0 := funext fun a => by
  match a with | ⟨0, _⟩ => rfl

/-- What the body leaves in the output block, as one function of the two loaded stretches: each load is of the
    whole staging buffer, and the one store covers the block. -/
theorem block_form (x0 x1 : Vec Ideal S32768 .f32) : out0_2 x0 x1 = E2 x0 x1 := by
  funext y
  unfold out0_2
  simp only [View.ld_unit_zero (S := S32768) offset_zero]
  exact canon2_eq x0 x1 y

/-- The entry of a column `[32768, 1]` that block entry `(p, q)` reads is `(p, 0)`. -/
theorem column_index (p : Fin 32768) (q : Fin 16) : ix2_0 (ix2 p q) = ix2 p (0 : Fin 1) := by
  funext a
  match a with
  | ⟨0, _⟩ => rfl
  | ⟨1, _⟩ => rfl

/-- Entry `(p, q)` of the joined block is the `q`-th column vector at `p`; the column vectors are pointwise in the
    loaded stretches, so this is the scalar column function at the `p`-th pair. The sixteen cases differ only in
    which column is read. -/
theorem block_apply (P0 P1 : Vec Ideal S32768 .f32) (p : Fin 32768) (q : Fin 16) :
    E2 (F := Ideal) P0 P1 (ix2 p q) = col q (P0 (ix1 p)) (P1 (ix1 p)) := by
  show Cat2_0 P0 P1 (csel2_0 (ix2 p q)) (ix2_0 (ix2 p q)) = _
  rw [column_index]
  match q with
  | ⟨0, _⟩ => exact (shapeCast_a_a1_apply _ _ p 0).trans rfl
  | ⟨1, _⟩ => exact (shapeCast_a_a1_apply _ _ p 0).trans rfl
  | ⟨2, _⟩ => exact (shapeCast_a_a1_apply _ _ p 0).trans rfl
  | ⟨3, _⟩ => exact (shapeCast_a_a1_apply _ _ p 0).trans rfl
  | ⟨4, _⟩ => exact (shapeCast_a_a1_apply _ _ p 0).trans rfl
  | ⟨5, _⟩ => exact (shapeCast_a_a1_apply _ _ p 0).trans rfl
  | ⟨6, _⟩ => exact (shapeCast_a_a1_apply _ _ p 0).trans rfl
  | ⟨7, _⟩ => exact (shapeCast_a_a1_apply _ _ p 0).trans rfl
  | ⟨8, _⟩ => exact (shapeCast_a_a1_apply _ _ p 0).trans rfl
  | ⟨9, _⟩ => exact (shapeCast_a_a1_apply _ _ p 0).trans rfl
  | ⟨10, _⟩ => exact (shapeCast_a_a1_apply _ _ p 0).trans rfl
  | ⟨11, _⟩ => exact (shapeCast_a_a1_apply _ _ p 0).trans rfl
  | ⟨12, _⟩ => exact (shapeCast_a_a1_apply _ _ p 0).trans rfl
  | ⟨13, _⟩ => exact (shapeCast_a_a1_apply _ _ p 0).trans rfl
  | ⟨14, _⟩ => exact (shapeCast_a_a1_apply _ _ p 0).trans rfl
  | ⟨15, _⟩ => exact (shapeCast_a_a1_apply _ _ p 0).trans rfl
  | ⟨_ + 16, h⟩ => exact absurd h (Nat.not_lt.2 (Nat.le_add_left _ _))

/-- A block against the table: if the two loaded stretches are rows `32768 · k + p` of the arrays `X`, `Φ`, then the
    block's entry `y` is the table's entry `i` whenever `i` sits at row `32768 · k + y₀` and column `y₁`. -/
theorem block_is_table (X Φ : S8388608.Idx → EReal) (x0 x1 : Vec Ideal S32768 .f32) (k : Nat)
    (hx : ∀ (p : Fin 32768) (r : Fin 8388608), r.val = k * 32768 + p.val → x0 (ix1 p) = X (ix1 r))
    (hφ : ∀ (p : Fin 32768) (r : Fin 8388608), r.val = k * 32768 + p.val → x1 (ix1 p) = Φ (ix1 r))
    (y : S32768x16.Idx) (i : S8388608x16.Idx) (h0 : (i 0).val = k * 32768 + (y 0).val) (h1 : (i 1).val = (y 1).val) :
    out0_2 x0 x1 y = table X Φ i := by
  obtain ⟨p, q, rfl⟩ : ∃ (p : Fin 32768) (q : Fin 16), y = ix2 p q := ⟨y 0, y 1, eq_ix2 y⟩
  obtain ⟨r, q', rfl⟩ : ∃ (r : Fin 8388608) (q' : Fin 16), i = ix2 r q' := ⟨i 0, i 1, eq_ix2 i⟩
  have hr : r.val = k * 32768 + p.val := h0
  have hq : q' = q := Fin.ext h1
  rw [block_form, block_apply, table_apply, hx p r hr, hφ p r hr, hq]

/-! ## The grid: point `t` works on block `t` of all three arrays -/

variable (m : (ℓ : Loc nD τ sig) → Buf (Elt Ideal) ℓ) (ρ : Dev nD → PrngReg)

/-- The three index maps, decided over the 256 points: each input stretch and the output block sit at block
    index `t` along the rows, and the output block at index 0 along the columns. -/
theorem index_maps : ∀ t : Fin cfg0.N, win0_0.index t (0 : Fin 1) = t.val ∧ win0_1.index t (0 : Fin 1) = t.val
    ∧ win0_2.index t (0 : Fin 2) = t.val ∧ win0_2.index t (1 : Fin 2) = 0 :=
  (by decide +kernel : ∀ t : Fin grid0.N, _)

/-- What point `t` writes back is block `t` of the table of the argument arrays. -/
theorem written_back (c : Dev nD) (t : Fin cfg0.N) :
    (dats m 0 c).flushed 2 t
      = ((cfg0.win 2).blk t).view.read (Elt Ideal) (table (V m c main_arg0) (V m c main_arg1)) := by
  rw [flushed2]
  obtain ⟨e0, e1, e2, e3⟩ := index_maps t
  funext j
  show out0_2 (iblk m c 0 t) (iblk m c 1 t) j
    = table (V m c main_arg0) (V m c main_arg1) (((cfg0.win 2).blk t).view.emb j)
  refine block_is_table (V m c main_arg0) (V m c main_arg1) (iblk m c 0 t) (iblk m c 1 t) t.val ?_ ?_ j
    (((cfg0.win 2).blk t).view.emb j) ?_ ?_
  · intro p r hr
    show V m c main_arg0 (((cfg0.win 0).blk t).view.emb (ix1 p)) = V m c main_arg0 (ix1 r)
    refine congrArg (V m c main_arg0) (funext fun a => Fin.ext ?_)
    match a with
    | ⟨0, _⟩ => show win0_0.index t (0 : Fin 1) * 32768 + 1 * p.val = r.val; omega
  · intro p r hr
    show V m c main_arg1 (((cfg0.win 1).blk t).view.emb (ix1 p)) = V m c main_arg1 (ix1 r)
    refine congrArg (V m c main_arg1) (funext fun a => Fin.ext ?_)
    match a with
    | ⟨0, _⟩ => show win0_1.index t (0 : Fin 1) * 32768 + 1 * p.val = r.val; omega
  · show win0_2.index t (0 : Fin 2) * 32768 + 1 * (j 0).val = t.val * 32768 + (j 0).val; omega
  · show win0_2.index t (1 : Fin 2) * 16 + 1 * (j 1).val = (j 1).val; omega

/-- An entry of the result lies in point `t`'s block iff each coordinate lies in the block's range on its axis. -/
theorem in_block (t : Fin cfg0.N) (i : S8388608x16.Idx) :
    i ∈ ((cfg0.win 2).blk t).view.set ↔ ∀ a : Fin 2, win0_2.index t a * S32768x16.size a ≤ (i a).val
      ∧ (i a).val < win0_2.index t a * S32768x16.size a + S32768x16.size a := by
  show i ∈ ((View.whole main_v0).slice (win0_2.rect t)).set ↔ _
  rw [View.set_slice_whole, Rect.mem_set_unit]
  exact Iff.rfl

/-- Every entry of the result is in some point's block: row `r` in that of point `r / 32768`. -/
theorem covered (i : S8388608x16.Idx) :
    ∃ t : Fin cfg0.N, (cfg0.win 2).flush t = true ∧ i ∈ ((cfg0.win 2).blk t).view.set := by
  have hi0 : (i 0).val < 8388608 := (i 0).isLt
  have hi1 : (i 1).val < 16 := (i 1).isLt
  have hlt : (i 0).val / 32768 < 256 := by omega
  obtain ⟨e0, e1, e2, e3⟩ := index_maps ⟨(i 0).val / 32768, hlt⟩
  have e2' : win0_2.index ⟨(i 0).val / 32768, hlt⟩ (0 : Fin 2) = (i 0).val / 32768 := e2
  refine ⟨⟨(i 0).val / 32768, hlt⟩, flush0_2 _, ?_⟩
  rw [in_block]
  intro a
  match a with
  | ⟨0, _⟩ =>
    show win0_2.index ⟨(i 0).val / 32768, hlt⟩ (0 : Fin 2) * 32768 ≤ (i 0).val
      ∧ (i 0).val < win0_2.index ⟨(i 0).val / 32768, hlt⟩ (0 : Fin 2) * 32768 + 32768
    omega
  | ⟨1, _⟩ =>
    show win0_2.index ⟨(i 0).val / 32768, hlt⟩ (1 : Fin 2) * 16 ≤ (i 1).val
      ∧ (i 1).val < win0_2.index ⟨(i 0).val / 32768, hlt⟩ (1 : Fin 2) * 16 + 16
    omega

/-- After the run the result array is the table of the argument arrays. -/
theorem result (c : Dev nD) :
    (dats m 0 c).arrAt 2 cfg0.N
      = table (m ((c : Thread nD τ).loc main_arg0)) (m ((c : Thread nD τ).loc main_arg1)) :=
  (dats m 0 c).arrAt_eq_of_cover 2 (table (V m c main_arg0) (V m c main_arg1))
    (fun t _ => written_back m c t) covered

/-- Every weakly fair execution of the idealized kernel ends with the result array at the table of its arguments and
    the arguments unchanged. -/
theorem run : θ_run defs (onTc (τ := τ) (main (F := Ideal))) ⟨m, fun _ => 0, ρ⟩ fun r => ∀ c : Dev nD,
      r.2.mem ((c : Thread nD τ).loc main_v0)
        = table (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result m c), (h c).2⟩) (run_blocks m ρ)

end Cert.KernelIdeal.Table

end
-- ==== Proof.ReferenceTable.lean ====
/-
  The idealized reference's result array is the table of the harmonics. The reference forms the sixteen columns as
  whole arrays of 8388608 entries, each by the same chain of pointwise operations on the two argument arrays (the
  clip is a maximum with zero, the root and the sine and cosine are the extended reals' own, a division is the
  extended reals' division), views each as a column `[8388608, 1]` and joins them along the second axis. Entry
  `(r, q)` of the joined array is the `q`-th column array at `r`; read back through its chain, one pointwise
  operation at a time, that is the scalar column function at the `r`-th pair of the arguments.
-/
import proofs.«108804_j35820027249310_1_alg».proof.Proof.Gen.ReferenceIdeal.Read
import proofs.«108804_j35820027249310_1_alg».proof.Proof.Harmonics
import Idealize.ShloMosaic.Lib.Pipeline.Value
import Idealize.ShloMosaic.Lib.ValueIdx

noncomputable section

namespace Cert.ReferenceIdeal.Table

open Cert.ReferenceIdeal Cert.ReferenceIdeal.Read Idealize.ShloMosaic Idealize.ShloMosaic.TcCoe Idealize.SL.Sem
open Idealize.ShloMosaic.ValueIdx Cert.Harmonics

/-- The sixteen columns `[8388608, 1]` that the reference joins, in order. -/
abbrev columns (x0 x1 : (⟨S8388608, .f32⟩ : BufTy).Contents (Elt Ideal)) : Fin 16 → (S8388608x1.Idx → Elt Ideal .f32) := fun n => match n with
  | ⟨0, _⟩ => val_main_v128 (F := Ideal)
  | ⟨1, _⟩ => val_main_v129 (F := Ideal) x0 x1
  | ⟨2, _⟩ => val_main_v130 (F := Ideal) x0
  | ⟨3, _⟩ => val_main_v131 (F := Ideal) x0 x1
  | ⟨4, _⟩ => val_main_v132 (F := Ideal) x0 x1
  | ⟨5, _⟩ => val_main_v133 (F := Ideal) x0 x1
  | ⟨6, _⟩ => val_main_v134 (F := Ideal) x0
  | ⟨7, _⟩ => val_main_v135 (F := Ideal) x0 x1
  | ⟨8, _⟩ => val_main_v136 (F := Ideal) x0 x1
  | ⟨9, _⟩ => val_main_v137 (F := Ideal) x0 x1
  | ⟨10, _⟩ => val_main_v138 (F := Ideal) x0 x1
  | ⟨11, _⟩ => val_main_v139 (F := Ideal) x0 x1
  | ⟨12, _⟩ => val_main_v140 (F := Ideal) x0
  | ⟨13, _⟩ => val_main_v141 (F := Ideal) x0 x1
  | ⟨14, _⟩ => val_main_v142 (F := Ideal) x0 x1
  | ⟨15, _⟩ => val_main_v143 (F := Ideal) x0 x1
  | ⟨_ + 16, h⟩ => absurd h (Nat.not_lt.2 (Nat.le_add_left _ _))

/-- Entry `(r, q)` of the joined array is entry `(r, 0)` of the `q`-th column: the columns have extent one along the
    joined axis, so the coordinate `q` there picks the column and leaves position 0 inside it. -/
theorem joined_apply (x0 x1 : (⟨S8388608, .f32⟩ : BufTy).Contents (Elt Ideal)) (r : Fin 8388608) (q : Fin 16) :
    val_main_v144 (F := Ideal) x0 x1 (ix2 r q) = columns x0 x1 q (ix2 r (0 : Fin 1)) := by
  unfold val_main_v144
  show concatenate S8388608x16 1 (List.ofFn fun n : Fin 16 => (⟨S8388608x1, columns x0 x1 n⟩ : (s : Shape) × (s.Idx → _))) _ (ix2 r q) = _
  exact concatenate_ofFn_apply (t := S8388608x16) (s₁ := S8388608x1) (1 : Fin 2) (columns x0 x1) _ rfl 1 rfl (ix2 r q) q
    (by show q.val / 1 = q.val; omega) (ix2 r (0 : Fin 1)) (by show 0 = q.val % 1; omega)
    (fun b hb => by match b with | ⟨0, _⟩ => rfl | ⟨1, _⟩ => exact absurd rfl hb)

/-! Each column `[8388608, 1]` is its array viewed as a column: entry `(r, 0)` reads the array at `r`. -/
theorem row_of_128 (r : Fin 8388608) : idx_main_v128 (ix2 r (0 : Fin 1)) = ix1 r := by
  funext a; match a with | ⟨0, _⟩ => rfl
theorem row_of_129 (r : Fin 8388608) : idx_main_v129 (ix2 r (0 : Fin 1)) = ix1 r := by
  funext a; match a with | ⟨0, _⟩ => rfl
theorem row_of_130 (r : Fin 8388608) : idx_main_v130 (ix2 r (0 : Fin 1)) = ix1 r := by
  funext a; match a with | ⟨0, _⟩ => rfl
theorem row_of_131 (r : Fin 8388608) : idx_main_v131 (ix2 r (0 : Fin 1)) = ix1 r := by
  funext a; match a with | ⟨0, _⟩ => rfl
theorem row_of_132 (r : Fin 8388608) : idx_main_v132 (ix2 r (0 : Fin 1)) = ix1 r := by
  funext a; match a with | ⟨0, _⟩ => rfl
theorem row_of_133 (r : Fin 8388608) : idx_main_v133 (ix2 r (0 : Fin 1)) = ix1 r := by
  funext a; match a with | ⟨0, _⟩ => rfl
theorem row_of_134 (r : Fin 8388608) : idx_main_v134 (ix2 r (0 : Fin 1)) = ix1 r := by
  funext a; match a with | ⟨0, _⟩ => rfl
theorem row_of_135 (r : Fin 8388608) : idx_main_v135 (ix2 r (0 : Fin 1)) = ix1 r := by
  funext a; match a with | ⟨0, _⟩ => rfl
theorem row_of_136 (r : Fin 8388608) : idx_main_v136 (ix2 r (0 : Fin 1)) = ix1 r := by
  funext a; match a with | ⟨0, _⟩ => rfl
theorem row_of_137 (r : Fin 8388608) : idx_main_v137 (ix2 r (0 : Fin 1)) = ix1 r := by
  funext a; match a with | ⟨0, _⟩ => rfl
theorem row_of_138 (r : Fin 8388608) : idx_main_v138 (ix2 r (0 : Fin 1)) = ix1 r := by
  funext a; match a with | ⟨0, _⟩ => rfl
theorem row_of_139 (r : Fin 8388608) : idx_main_v139 (ix2 r (0 : Fin 1)) = ix1 r := by
  funext a; match a with | ⟨0, _⟩ => rfl
theorem row_of_140 (r : Fin 8388608) : idx_main_v140 (ix2 r (0 : Fin 1)) = ix1 r := by
  funext a; match a with | ⟨0, _⟩ => rfl
theorem row_of_141 (r : Fin 8388608) : idx_main_v141 (ix2 r (0 : Fin 1)) = ix1 r := by
  funext a; match a with | ⟨0, _⟩ => rfl
theorem row_of_142 (r : Fin 8388608) : idx_main_v142 (ix2 r (0 : Fin 1)) = ix1 r := by
  funext a; match a with | ⟨0, _⟩ => rfl
theorem row_of_143 (r : Fin 8388608) : idx_main_v143 (ix2 r (0 : Fin 1)) = ix1 r := by
  funext a; match a with | ⟨0, _⟩ => rfl

/-- The `q`-th column at `(r, 0)` is the scalar column function at the `r`-th pair: the column's array is pointwise
    in the arguments, stage by stage, and each stage at `r` is the scalar operation on its operands at `r`. -/
theorem column_apply (x0 x1 : (⟨S8388608, .f32⟩ : BufTy).Contents (Elt Ideal)) (r : Fin 8388608) (q : Fin 16) :
    columns x0 x1 q (ix2 r (0 : Fin 1)) = col q (x0 (ix1 r)) (x1 (ix1 r)) := by
  match q with
  | ⟨0, _⟩ =>
    show val_main_v128 (F := Ideal) (ix2 r (0 : Fin 1)) = _
    rw [val_main_v128_apply, row_of_128]
    rfl
  | ⟨1, _⟩ =>
    show val_main_v129 (F := Ideal) x0 x1 (ix2 r (0 : Fin 1)) = _
    rw [val_main_v129_apply, row_of_129]
    rfl
  | ⟨2, _⟩ =>
    show val_main_v130 (F := Ideal) x0 (ix2 r (0 : Fin 1)) = _
    rw [val_main_v130_apply, row_of_130]
    rfl
  | ⟨3, _⟩ =>
    show val_main_v131 (F := Ideal) x0 x1 (ix2 r (0 : Fin 1)) = _
    rw [val_main_v131_apply, row_of_131]
    rfl
  | ⟨4, _⟩ =>
    show val_main_v132 (F := Ideal) x0 x1 (ix2 r (0 : Fin 1)) = _
    rw [val_main_v132_apply, row_of_132]
    rfl
  | ⟨5, _⟩ =>
    show val_main_v133 (F := Ideal) x0 x1 (ix2 r (0 : Fin 1)) = _
    rw [val_main_v133_apply, row_of_133]
    rfl
  | ⟨6, _⟩ =>
    show val_main_v134 (F := Ideal) x0 (ix2 r (0 : Fin 1)) = _
    rw [val_main_v134_apply, row_of_134]
    rfl
  | ⟨7, _⟩ =>
    show val_main_v135 (F := Ideal) x0 x1 (ix2 r (0 : Fin 1)) = _
    rw [val_main_v135_apply, row_of_135]
    rfl
  | ⟨8, _⟩ =>
    show val_main_v136 (F := Ideal) x0 x1 (ix2 r (0 : Fin 1)) = _
    rw [val_main_v136_apply, row_of_136]
    rfl
  | ⟨9, _⟩ =>
    show val_main_v137 (F := Ideal) x0 x1 (ix2 r (0 : Fin 1)) = _
    rw [val_main_v137_apply, row_of_137]
    rfl
  | ⟨10, _⟩ =>
    show val_main_v138 (F := Ideal) x0 x1 (ix2 r (0 : Fin 1)) = _
    rw [val_main_v138_apply, row_of_138]
    rfl
  | ⟨11, _⟩ =>
    show val_main_v139 (F := Ideal) x0 x1 (ix2 r (0 : Fin 1)) = _
    rw [val_main_v139_apply, row_of_139]
    rfl
  | ⟨12, _⟩ =>
    show val_main_v140 (F := Ideal) x0 (ix2 r (0 : Fin 1)) = _
    rw [val_main_v140_apply, row_of_140]
    rfl
  | ⟨13, _⟩ =>
    show val_main_v141 (F := Ideal) x0 x1 (ix2 r (0 : Fin 1)) = _
    rw [val_main_v141_apply, row_of_141]
    rfl
  | ⟨14, _⟩ =>
    show val_main_v142 (F := Ideal) x0 x1 (ix2 r (0 : Fin 1)) = _
    rw [val_main_v142_apply, row_of_142]
    rfl
  | ⟨15, _⟩ =>
    show val_main_v143 (F := Ideal) x0 x1 (ix2 r (0 : Fin 1)) = _
    rw [val_main_v143_apply, row_of_143]
    rfl
  | ⟨_ + 16, h⟩ => exact absurd h (Nat.not_lt.2 (Nat.le_add_left _ _))

/-- The reference's result, as a function of its two arguments, is the table. -/
theorem result_eq (x0 x1 : (⟨S8388608, .f32⟩ : BufTy).Contents (Elt Ideal)) :
    val_main_v144 (F := Ideal) x0 x1 = table x0 x1 := by
  funext i
  obtain ⟨r, q, rfl⟩ : ∃ (r : Fin 8388608) (q : Fin 16), i = ix2 r q := ⟨i 0, i 1, eq_ix2 i⟩
  rw [joined_apply, table_apply]
  exact column_apply x0 x1 r q

end Cert.ReferenceIdeal.Table

end
-- ==== Proof.lean ====
/- The kernel evaluates the real spherical harmonics of degree below four at 8388608 pairs `(cos θ, φ)` and lays them
   out as a table `[8388608, 16]`; the reference computes the same table with whole-array operations. Both follow the
   same recurrences for the associated Legendre functions with the same float constants, so at the extended reals
   they are one function of the arguments, entry by entry: no law of arithmetic is needed beyond each operation being
   the same on both sides (the kernel's root, sine, cosine and quotient are the host's at the extended reals), and the
   inputs' finiteness is not used. The kernel side reads the table off the run grid point by grid point (a point
   writes 32768 rows; the 256 points' blocks cover the result); the reference side reads it off the run one
   operation at a time. The three programs' runs end with their arguments unchanged; the idealization rewrote no
   operation, so that conjunct is trivial. -/
import proofs.«108804_j35820027249310_1_alg».proof.Defs
import proofs.«108804_j35820027249310_1_alg».proof.Proof.Gen.Kernel
import proofs.«108804_j35820027249310_1_alg».proof.Proof.Gen.Kernel.Skeleton
import proofs.«108804_j35820027249310_1_alg».proof.Proof.Gen.Kernel.Launch
import proofs.«108804_j35820027249310_1_alg».proof.Proof.Gen.Kernel.Points
import proofs.«108804_j35820027249310_1_alg».proof.Proof.Gen.Kernel.Frame
import proofs.«108804_j35820027249310_1_alg».proof.Proof.Gen.KernelIdeal
import proofs.«108804_j35820027249310_1_alg».proof.Proof.Gen.KernelIdeal.Skeleton
import proofs.«108804_j35820027249310_1_alg».proof.Proof.Gen.KernelIdeal.Launch
import proofs.«108804_j35820027249310_1_alg».proof.Proof.Gen.KernelIdeal.Points
import proofs.«108804_j35820027249310_1_alg».proof.Proof.Gen.KernelIdeal.Frame
import proofs.«108804_j35820027249310_1_alg».proof.Proof.Gen.ReferenceIdeal
import proofs.«108804_j35820027249310_1_alg».proof.Proof.Gen.Pre_finite_inputs
import proofs.«108804_j35820027249310_1_alg».proof.Proof.Gen.ReferenceIdeal.Run
import proofs.«108804_j35820027249310_1_alg».proof.Proof.Gen.ReferenceIdeal.Read
import proofs.«108804_j35820027249310_1_alg».proof.Proof.KernelTable
import proofs.«108804_j35820027249310_1_alg».proof.Proof.ReferenceTable
import Idealize.ShloMosaic.Adequacy
import Idealize.ShloMosaic.Init

noncomputable section

namespace Cert.Proof

open Idealize.ShloMosaic Idealize.ShloMosaic.TcCoe Idealize.SL.Sem

/-- The word-level kernel runs, without a fault, and leaves its arguments as they were. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- So does the idealized reference: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the arguments both idealized programs end with the table of the harmonics of
    those arguments as their result. -/
theorem algebraic : Cert.algebraic_KernelIdeal_ReferenceIdeal := by
  intro m ρ m' ρ' _ hagree
  refine ⟨_, Cert.KernelIdeal.Table.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v144_eq, (hagree c).1, (hagree c).2]
  exact Cert.ReferenceIdeal.Table.result_eq _ _

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
